-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S100000x128 .f32) (main_arg2 : IVec S2x1600000 32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S1x128 : Shape := ⟨2, ![1, 128]⟩
abbrev S1x64 : Shape := ⟨2, ![1, 64]⟩
abbrev S4000x128 : Shape := ⟨2, ![4000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S4000x64 : Shape := ⟨2, ![4000, 64]⟩

abbrev nBuf : Space → Nat
  | .hbm => 36
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S128x128, .f32⟩
  | .hbm, ⟨10, _⟩ => ⟨S128x128, .f32⟩
  | .hbm, ⟨11, _⟩ => ⟨S128x64, .f32⟩
  | .hbm, ⟨12, _⟩ => ⟨S1x128, .f32⟩
  | .hbm, ⟨13, _⟩ => ⟨S1x128, .f32⟩
  | .hbm, ⟨14, _⟩ => ⟨S1x64, .f32⟩
  | .hbm, ⟨15, _⟩ => ⟨S100000x128, .f32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x64, .f32⟩
  | .local _ .vmem, ⟨17, _⟩ => ⟨S1x64, .f32⟩
  | .local _ .vmem, ⟨18, _⟩ => ⟨S4000x128, .f32⟩
  | .local _ .vmem, ⟨19, _⟩ => ⟨S4000x128, .f32⟩
  | .local _ .vmem, ⟨20, _⟩ => ⟨S4000x64, .f32⟩
  | .local _ .vmem, ⟨21, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S128x128, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S128x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  What the node update computes, as functions of whole arrays over the extended reals.

  One round of message passing on a graph of 100000 nodes and 1600000 edges, hidden width 128:
    h      = x · W_wᵀ + W_b                      (an affine map of every node's row)
    agg[t] = Σ over edges (s → t) of h[s]          (gather rows at the sources, sum them at the targets)
    x'     = max (agg + (u · φ_wᵀ + φ_b), 0)
    y      = x' · pred_wᵀ + pred_b                 (width 64)
  The affine maps are written index by index: entry (r, j) is Σ_k x[r, k] · wt[k, j] + b[0, j], with the weight
  already transposed and the bias as a one-row matrix, which is how both programs hand them to the product.
  The gather and scatter-sum over the edge list is carried as ONE function `aggregate` of the rows `h` and the
  edge list: both programs apply the very same operations there, so nothing about it is ever opened.
-/
import proofs.«104201_j43361989821071_1_alg».proof.Proof.Gen.KernelIdeal
import Idealize.ShloMosaic.PureOps.Ideal
import Idealize.ShloMosaic.Lib.ValueIdx

noncomputable section

namespace Cert.Gnn

open Idealize.ShloMosaic Cert.KernelIdeal Cert.KernelIdeal.Facts₀
open scoped BigOperators

/-! ## Indices -/

/-- Row of `i`, column `k`, in a 100000 × 128 array: where a product's left factor is read. -/
abbrev rowAt {n : Nat} (i : (⟨2, ![100000, n]⟩ : Shape).Idx) (k : Fin 128) : S100000x128.Idx := fun a => match a with
  | ⟨0, _⟩ => ⟨(i 0).val, (i 0).isLt⟩
  | ⟨1, _⟩ => ⟨k.val, k.isLt⟩
/-- Row `k`, column of `i`, in a 128 × n weight: where a product's right factor is read. -/
abbrev colAt {n : Nat} (i : (⟨2, ![100000, n]⟩ : Shape).Idx) (k : Fin 128) : (⟨2, ![128, n]⟩ : Shape).Idx := fun a => match a with
  | ⟨0, _⟩ => ⟨k.val, k.isLt⟩
  | ⟨1, _⟩ => ⟨(i 1).val, (i 1).isLt⟩
/-- Column of `i` in a one-row bias. -/
abbrev biasAt {n : Nat} (i : (⟨2, ![100000, n]⟩ : Shape).Idx) : (⟨2, ![1, n]⟩ : Shape).Idx := fun a => match a with
  | ⟨0, _⟩ => ⟨0, Nat.one_pos⟩
  | ⟨1, _⟩ => ⟨(i 1).val, (i 1).isLt⟩

/-! ## The four stages -/

/-- `x · wt + b` into width 128: entry (r, j) is Σ_k x[r, k] · wt[k, j] + b[0, j]. -/
def affine128 (x : FVec Ideal S100000x128 .f32) (wt : FVec Ideal S128x128 .f32) (b : FVec Ideal S1x128 .f32) :
    FVec Ideal S100000x128 .f32 :=
  fun i => (∑ k : Fin 128, x (rowAt i k) * wt (colAt i k)) + b (biasAt i)

/-- `x · wt + b` into width 64. -/
def affine64 (x : FVec Ideal S100000x128 .f32) (wt : FVec Ideal S128x64 .f32) (b : FVec Ideal S1x64 .f32) :
    FVec Ideal S100000x64 .f32 :=
  fun i => (∑ k : Fin 128, x (rowAt i k) * wt (colAt i k)) + b (biasAt i)

/-- The rectified sum `max (a + p, 0)`, entry by entry; the zero is the float word of +0.0, kept as a word. -/
def reluSum (a p : FVec Ideal S100000x128 .f32) : FVec Ideal S100000x128 .f32 :=
  fun i => max (a i + p i) (FloatOps.ofBits (F := Ideal) .f32 0x00000000#32)

/-- Sum of the rows of `h` over the edge list `e` (row 0 the sources, row 1 the targets): a negative source wraps
    by 100000, the rows are gathered at the sources and added into a zero array at the targets. Never opened:
    both programs apply exactly these operations to their `h`. -/
def aggregate (h : FVec Ideal S100000x128 .f32) (e : Vec Ideal S2x1600000 .i32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select
          (cmpi .slt (shapeCast _ (extractStridedSlice S1x1600000 ![0, 0] e slices_S2x1600000_S1x1600000_0_0) shapeCasts_S1x1600000_S1600000)
            (broadcastInDim S1600000 ![] bcast_S_S1600000 (constantI S_ 32 0#32)))
          (addi (shapeCast _ (extractStridedSlice S1x1600000 ![0, 0] e slices_S2x1600000_S1x1600000_0_0) shapeCasts_S1x1600000_S1600000)
            (broadcastInDim S1600000 ![] bcast_S_S1600000 (constantI S_ 32 100000#32)))
          (shapeCast _ (extractStridedSlice S1x1600000 ![0, 0] e slices_S2x1600000_S1x1600000_0_0) shapeCasts_S1x1600000_S1600000))))

/-! ## The operands as both programs prepare them -/

/-- A 128 × 128 weight transposed. -/
def weightT128 (w : FVec Ideal S128x128 .f32) : FVec Ideal S128x128 .f32 :=
  transpose S128x128 [1, 0] w transposes_S128x128_S128x128_1_0
/-- The 64 × 128 head weight transposed. -/
def weightT64 (w : FVec Ideal S64x128 .f32) : FVec Ideal S128x64 .f32 :=
  transpose S128x64 [1, 0] w transposes_S64x128_S128x64_1_0
/-- A length-128 bias as a one-row matrix. -/
def biasRow128 (b : FVec Ideal S128 .f32) : FVec Ideal S1x128 .f32 :=
  shapeCast S1x128 b shapeCasts_S128_S1x128
/-- The length-64 bias as a one-row matrix. -/
def biasRow64 (b : FVec Ideal S64 .f32) : FVec Ideal S1x64 .f32 :=
  shapeCast S1x64 b shapeCasts_S64_S1x64

/-- The updated node features from prepared operands: `wt`, `pt` the transposed weights, `wb`, `pb` one-row biases. -/
def updated (x u : FVec Ideal S100000x128 .f32) (e : Vec Ideal S2x1600000 .i32)
    (wt : FVec Ideal S128x128 .f32) (wb : FVec Ideal S1x128 .f32) (pt : FVec Ideal S128x128 .f32) (pb : FVec Ideal S1x128 .f32) :
    FVec Ideal S100000x128 .f32 :=
  reluSum (aggregate (affine128 x wt wb) e) (affine128 u pt pb)

/-- First result: the updated node features, from the nine arguments as given. -/
def nodeUpdate (x u : FVec Ideal S100000x128 .f32) (e : Vec Ideal S2x1600000 .i32)
    (w : FVec Ideal S128x128 .f32) (wb : FVec Ideal S128 .f32) (p : FVec Ideal S128x128 .f32) (pb : FVec Ideal S128 .f32) :
    FVec Ideal S100000x128 .f32 :=
  updated x u e (weightT128 w) (biasRow128 wb) (weightT128 p) (biasRow128 pb)

/-- Second result: the prediction head applied to the updated features. -/
def prediction (x u : FVec Ideal S100000x128 .f32) (e : Vec Ideal S2x1600000 .i32)
    (w : FVec Ideal S128x128 .f32) (wb : FVec Ideal S128 .f32) (p : FVec Ideal S128x128 .f32) (pb : FVec Ideal S128 .f32)
    (q : FVec Ideal S64x128 .f32) (qb : FVec Ideal S64 .f32) : FVec Ideal S100000x64 .f32 :=
  affine64 (nodeUpdate x u e w wb p pb) (weightT64 q) (biasRow64 qb)

end Cert.Gnn

end
-- ==== Proof.LinearBlocks.lean ====
import proofs.«104201_j43361989821071_1_alg».proof.Proof.Gen.KernelIdeal.Frame
import proofs.«104201_j43361989821071_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinearValue

open Cert.KernelIdeal Cert.KernelIdeal.Gen Cert.KernelIdeal.Facts₀
open Idealize.ShloMosaic Idealize.ShloMosaic.TcCoe Idealize.SL.Sem
open Idealize.ShloMosaic.Pipeline (Dat Cfg Window)
open scoped BigOperators

/-! ## One block of rows times the whole weight, entry by entry -/

/-- The left factor's index of the block product at output `y`, contraction index `q`: on the row axis it is `y`'s row; -/
theorem blockProduct_lhs_row (y : S4000x128.Idx) (q : dot_S4000x128_S128x128_S4000x128_1_0_0_1_n_n.contr.Idx) :
    (dot_S4000x128_S128x128_S4000x128_1_0_0_1_n_n.lhsIdx y q 0).val = (y 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- on the column axis it is the contraction index. -/
theorem blockProduct_lhs_col (y : S4000x128.Idx) (q : dot_S4000x128_S128x128_S4000x128_1_0_0_1_n_n.contr.Idx) :
    (dot_S4000x128_S128x128_S4000x128_1_0_0_1_n_n.lhsIdx y q 1).val = (q ⟨0, by decide⟩).val :=
  dot_S4000x128_S128x128_S4000x128_1_0_0_1_n_n.lhsIdx_val_of_single rfl y q
/-- The right factor's index: on the row axis the contraction index, -/
theorem blockProduct_rhs_row (y : S4000x128.Idx) (q : dot_S4000x128_S128x128_S4000x128_1_0_0_1_n_n.contr.Idx) :
    (dot_S4000x128_S128x128_S4000x128_1_0_0_1_n_n.rhsIdx y q 0).val = (q ⟨0, by decide⟩).val :=
  dot_S4000x128_S128x128_S4000x128_1_0_0_1_n_n.rhsIdx_val_of_single rfl y q
/-- and on the column axis `y`'s column. -/
theorem blockProduct_rhs_col (y : S4000x128.Idx) (q : dot_S4000x128_S128x128_S4000x128_1_0_0_1_n_n.contr.Idx) :
    (dot_S4000x128_S128x128_S4000x128_1_0_0_1_n_n.rhsIdx y q 1).val = (y 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Row of `y`, column `k`, inside a 4000 × 128 block of rows. -/
abbrev blockRowAt (y : S4000x128.Idx) (k : Fin 128) : S4000x128.Idx := fun a => match a with
  | ⟨0, _⟩ => ⟨(y 0).val, (y 0).isLt⟩
  | ⟨1, _⟩ => ⟨k.val, k.isLt⟩
/-- Row `k`, column of `y`, in the 128 × 128 weight. -/
abbrev blockColAt (y : S4000x128.Idx) (k : Fin 128) : S128x128.Idx := fun a => match a with
  | ⟨0, _⟩ => ⟨k.val, k.isLt⟩
  | ⟨1, _⟩ => ⟨(y 1).val, (y 1).isLt⟩
/-- Column of `y` in the one-row bias. -/
abbrev blockBiasAt (y : S4000x128.Idx) : S1x128.Idx := fun a => match a with
  | ⟨0, _⟩ => ⟨0, Nat.one_pos⟩
  | ⟨1, _⟩ => ⟨(y 1).val, (y 1).isLt⟩

/-- What the body stores, at an entry of the block: over the extended reals the narrowing casts are the identity, a
    cast to the same shape changes nothing, the product into the zero accumulator is the plain sum over the 128
    contracted columns, and the bias row is added to every row. -/
theorem linear_payload_apply (x0 : Vec Ideal S4000x128 .f32) (w : Vec Ideal S128x128 .f32) (b : Vec Ideal S1x128 .f32) (y : S4000x128.Idx) :
    k0_pay1 (F := Ideal) x0 w b y = (∑ k : Fin 128, x0 (blockRowAt y k) * w (blockColAt y k)) + b (blockBiasAt y) := by
  unfold k0_pay1
  rw [ValueIdx.addf_apply, shapeCast_self, shapeCast_self]
  congr 1
  · show FloatOps.matmul dot_S4000x128_S128x128_S4000x128_1_0_0_1_n_n none (truncf FTy.bf16 x0 _) (truncf FTy.bf16 w _) (constant (F := Ideal) S4000x128 .f32 0x00000000#32) y = _
    rw [Ideal.matmul_constant_zero_apply, ← Equiv.sum_comp (ValueIdx.contrEquiv1 dot_S4000x128_S128x128_S4000x128_1_0_0_1_n_n 128 rfl rfl).symm]
    refine Finset.sum_congr rfl fun k _ => ?_
    have hk := ValueIdx.contrEquiv1_symm_val dot_S4000x128_S128x128_S4000x128_1_0_0_1_n_n 128 rfl rfl k
    have el : dot_S4000x128_S128x128_S4000x128_1_0_0_1_n_n.lhsIdx y ((ValueIdx.contrEquiv1 dot_S4000x128_S128x128_S4000x128_1_0_0_1_n_n 128 rfl rfl).symm k) = blockRowAt y k := funext fun a => Fin.ext (by
      match a with
      | ⟨0, _⟩ => exact blockProduct_lhs_row _ _
      | ⟨1, _⟩ => exact (blockProduct_lhs_col _ _).trans hk)
    have er : dot_S4000x128_S128x128_S4000x128_1_0_0_1_n_n.rhsIdx y ((ValueIdx.contrEquiv1 dot_S4000x128_S128x128_S4000x128_1_0_0_1_n_n 128 rfl rfl).symm k) = blockColAt y k := funext fun a => Fin.ext (by
      match a with
      | ⟨0, _⟩ => exact (blockProduct_rhs_row _ _).trans hk
      | ⟨1, _⟩ => exact blockProduct_rhs_col _ _)
    rw [el, er]
    rfl
  · exact broadcastTo_apply b _ y (blockBiasAt y) (fun a => match a with
      | ⟨0, _⟩ => rfl
      | ⟨1, _⟩ => rfl)

/-- The second store's payload is the same function of its own three operands. -/
theorem second_payload_eq (x0 : Vec Ideal S4000x128 .f32) (w : Vec Ideal S128x128 .f32) (b : Vec Ideal S1x128 .f32) :
    k0_pay2 (F := Ideal) x0 w b = k0_pay1 (F := Ideal) x0 w b := rfl

/-! ## Where the blocks sit in their arrays -/

theorem zero_offsets : (![0, 0] : Fin 2 → Nat) = fun _ => 0 := funext fun a => by fin_cases a <;> rfl

/-- The index maps over the 25 grid points: the four row-blocked arrays are at block (t, 0), the weights and bias rows
    at block (0, 0). -/
theorem block_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry (row of `y`, `k`) of point `t`'s block of `x` is entry (row, `k`) of `x` at the row where the first output's
    block puts `y`. -/
theorem x_block_emb (t : Fin cfg0.N) (y : S4000x128.Idx) (k : Fin 128) :
    ((cfg0.win 0).blk t).view.emb (blockRowAt y k) = Cert.Gnn.rowAt (((cfg0.win 6).blk t).view.emb y) k := by
  obtain ⟨a0, a1, b0, b1, c0, c1, d0, d1, e0, e1, f0, f1, g0, g1, h0, h1⟩ := block_index_facts t
  funext a; apply Fin.ext
  match a with
  | ⟨0, _⟩ => show win0_0.index t (0 : Fin 2) * 4000 + 1 * (y 0).val = win0_6.index t (0 : Fin 2) * 4000 + 1 * (y 0).val; omega
  | ⟨1, _⟩ => show win0_0.index t (1 : Fin 2) * 128 + 1 * k.val = k.val; omega

/-- Entry (`k`, column of `y`) of the staged weight is that entry of the whole weight. -/
theorem w_block_emb (t : Fin cfg0.N) (y : S4000x128.Idx) (k : Fin 128) :
    ((cfg0.win 2).blk t).view.emb (blockColAt y k) = Cert.Gnn.colAt (((cfg0.win 6).blk t).view.emb y) k := by
  obtain ⟨a0, a1, b0, b1, c0, c1, d0, d1, e0, e1, f0, f1, g0, g1, h0, h1⟩ := block_index_facts t
  funext a; apply Fin.ext
  match a with
  | ⟨0, _⟩ => show win0_2.index t (0 : Fin 2) * 128 + 1 * k.val = k.val; omega
  | ⟨1, _⟩ => show win0_2.index t (1 : Fin 2) * 128 + 1 * (y 1).val = win0_6.index t (1 : Fin 2) * 128 + 1 * (y 1).val; omega

/-- The column of `y` in the staged bias row is that column of the whole bias row. -/
theorem b_block_emb (t : Fin cfg0.N) (y : S4000x128.Idx) :
    ((cfg0.win 3).blk t).view.emb (blockBiasAt y) = Cert.Gnn.biasAt (((cfg0.win 6).blk t).view.emb y) := by
  obtain ⟨a0, a1, b0, b1, c0, c1, d0, d1, e0, e1, f0, f1, g0, g1, h0, h1⟩ := block_index_facts t
  funext a; apply Fin.ext
  match a with
  | ⟨0, _⟩ => show win0_3.index t (0 : Fin 2) * 1 + 1 * 0 = 0; omega
  | ⟨1, _⟩ => show win0_3.index t (1 : Fin 2) * 128 + 1 * (y 1).val = win0_6.index t (1 : Fin 2) * 128 + 1 * (y 1).val; omega

/-- The same three for the second product: `u`'s block against the second output's block, -/
theorem u_block_emb (t : Fin cfg0.N) (y : S4000x128.Idx) (k : Fin 128) :
    ((cfg0.win 1).blk t).view.emb (blockRowAt y k) = Cert.Gnn.rowAt (((cfg0.win 7).blk t).view.emb y) k := by
  obtain ⟨a0, a1, b0, b1, c0, c1, d0, d1, e0, e1, f0, f1, g0, g1, h0, h1⟩ := block_index_facts t
  funext a; apply Fin.ext
  match a with
  | ⟨0, _⟩ => show win0_1.index t (0 : Fin 2) * 4000 + 1 * (y 0).val = win0_7.index t (0 : Fin 2) * 4000 + 1 * (y 0).val; omega
  | ⟨1, _⟩ => show win0_1.index t (1 : Fin 2) * 128 + 1 * k.val = k.val; omega

/-- its weight, -/
theorem p_block_emb (t : Fin cfg0.N) (y : S4000x128.Idx) (k : Fin 128) :
    ((cfg0.win 4).blk t).view.emb (blockColAt y k) = Cert.Gnn.colAt (((cfg0.win 7).blk t).view.emb y) k := by
  obtain ⟨a0, a1, b0, b1, c0, c1, d0, d1, e0, e1, f0, f1, g0, g1, h0, h1⟩ := block_index_facts t
  funext a; apply Fin.ext
  match a with
  | ⟨0, _⟩ => show win0_4.index t (0 : Fin 2) * 128 + 1 * k.val = k.val; omega
  | ⟨1, _⟩ => show win0_4.index t (1 : Fin 2) * 128 + 1 * (y 1).val = win0_7.index t (1 : Fin 2) * 128 + 1 * (y 1).val; omega

/-- and its bias row. -/
theorem pb_block_emb (t : Fin cfg0.N) (y : S4000x128.Idx) :
    ((cfg0.win 5).blk t).view.emb (blockBiasAt y) = Cert.Gnn.biasAt (((cfg0.win 7).blk t).view.emb y) := by
  obtain ⟨a0, a1, b0, b1, c0, c1, d0, d1, e0, e1, f0, f1, g0, g1, h0, h1⟩ := block_index_facts t
  funext a; apply Fin.ext
  match a with
  | ⟨0, _⟩ => show win0_5.index t (0 : Fin 2) * 1 + 1 * 0 = 0; omega
  | ⟨1, _⟩ => show win0_5.index t (1 : Fin 2) * 128 + 1 * (y 1).val = win0_7.index t (1 : Fin 2) * 128 + 1 * (y 1).val; omega

/-! ## What each grid point writes back -/

-- the TensorCore's buffer contents when the first kernel region is entered
variable (V : (c : Dev nD) → (b : Ref sig .tc) → Buf (Elt Ideal) ((c : Thread nD τ).loc b))

/-- Point `t` writes back, into the first output, block `t` of `x · wt + b` of the arrays the region found. -/
theorem flushed_h (c : Dev nD) (t : Fin cfg0.N) :
    (dat0 (F := Ideal) V c).flushed 6 t = ((cfg0.win 6).blk t).view.read (Elt Ideal) (Cert.Gnn.affine128 (V c main_arg0) (V c main_v0) (V c main_v3)) := by
  show (cfg0.win 6).cut (grid0.coords t) ((dat0 (F := Ideal) V c).after 6 t) = _
  rw [after0_6]
  unfold out0_6
  rw [View.canon_unit_zero zero_offsets]
  simp only [View.ld_unit_zero (S := S4000x128) zero_offsets, View.ld_unit_zero (S := S128x128) zero_offsets, View.ld_unit_zero (S := S1x128) zero_offsets]
  funext y
  show k0_pay1 (F := Ideal) (iblk0 V c 0 t) (iblk0 V c 2 t) (iblk0 V c 3 t) y = _
  refine (linear_payload_apply (iblk0 V c 0 t) (iblk0 V c 2 t) (iblk0 V c 3 t) y).trans ?_
  have hx : ∀ k : Fin 128, iblk0 V c 0 t (blockRowAt y k) = (V c main_arg0 : FVec Ideal S100000x128 .f32) (Cert.Gnn.rowAt (((cfg0.win 6).blk t).view.emb y) k) :=
    fun k => congrArg (V c main_arg0 : FVec Ideal S100000x128 .f32) (x_block_emb t y k)
  have hw : ∀ k : Fin 128, iblk0 V c 2 t (blockColAt y k) = (V c main_v0 : FVec Ideal S128x128 .f32) (Cert.Gnn.colAt (((cfg0.win 6).blk t).view.emb y) k) :=
    fun k => congrArg (V c main_v0 : FVec Ideal S128x128 .f32) (w_block_emb t y k)
  have hb : iblk0 V c 3 t (blockBiasAt y) = (V c main_v3 : FVec Ideal S1x128 .f32) (Cert.Gnn.biasAt (((cfg0.win 6).blk t).view.emb y)) :=
    congrArg (V c main_v3 : FVec Ideal S1x128 .f32) (b_block_emb t y)
  show _ = Cert.Gnn.affine128 (V c main_arg0) (V c main_v0) (V c main_v3) (((cfg0.win 6).blk t).view.emb y)
  unfold Cert.Gnn.affine128
  rw [hb]
  congr 1
  refine Finset.sum_congr rfl fun k _ => ?_
  rw [hx k, hw k]

/-- Point `t` writes back, into the second output, block `t` of `u · pt + pb`. -/
theorem flushed_phi (c : Dev nD) (t : Fin cfg0.N) :
    (dat0 (F := Ideal) V c).flushed 7 t = ((cfg0.win 7).blk t).view.read (Elt Ideal) (Cert.Gnn.affine128 (V c main_arg1) (V c main_v1) (V c main_v4)) := by
  show (cfg0.win 7).cut (grid0.coords t) ((dat0 (F := Ideal) V c).after 7 t) = _
  rw [after0_7]
  unfold out0_7
  rw [View.canon_unit_zero zero_offsets]
  simp only [View.ld_unit_zero (S := S4000x128) zero_offsets, View.ld_unit_zero (S := S128x128) zero_offsets, View.ld_unit_zero (S := S1x128) zero_offsets]
  funext y
  show k0_pay2 (F := Ideal) (iblk0 V c 1 t) (iblk0 V c 4 t) (iblk0 V c 5 t) y = _
  rw [second_payload_eq (iblk0 V c 1 t) (iblk0 V c 4 t) (iblk0 V c 5 t)]
  refine (linear_payload_apply (iblk0 V c 1 t) (iblk0 V c 4 t) (iblk0 V c 5 t) y).trans ?_
  have hx : ∀ k : Fin 128, iblk0 V c 1 t (blockRowAt y k) = (V c main_arg1 : FVec Ideal S100000x128 .f32) (Cert.Gnn.rowAt (((cfg0.win 7).blk t).view.emb y) k) :=
    fun k => congrArg (V c main_arg1 : FVec Ideal S100000x128 .f32) (u_block_emb t y k)
  have hw : ∀ k : Fin 128, iblk0 V c 4 t (blockColAt y k) = (V c main_v1 : FVec Ideal S128x128 .f32) (Cert.Gnn.colAt (((cfg0.win 7).blk t).view.emb y) k) :=
    fun k => congrArg (V c main_v1 : FVec Ideal S128x128 .f32) (p_block_emb t y k)
  have hb : iblk0 V c 5 t (blockBiasAt y) = (V c main_v4 : FVec Ideal S1x128 .f32) (Cert.Gnn.biasAt (((cfg0.win 7).blk t).view.emb y)) :=
    congrArg (V c main_v4 : FVec Ideal S1x128 .f32) (pb_block_emb t y)
  show _ = Cert.Gnn.affine128 (V c main_arg1) (V c main_v1) (V c main_v4) (((cfg0.win 7).blk t).view.emb y)
  unfold Cert.Gnn.affine128
  rw [hb]
  congr 1
  refine Finset.sum_congr rfl fun k _ => ?_
  rw [hx k, hw k]

/-! ## The blocks cover the arrays -/

/-- An index of the array is in point `t`'s block of the first output iff each coordinate is in the block's range. -/
theorem mem_h_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v6_0).slice (win0_6.rect t)).set ↔ _
  rw [View.set_slice_whole, Rect.mem_set_unit]
  exact Iff.rfl

/-- Likewise for the second output. -/
theorem mem_phi_block (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v6_1).slice (win0_7.rect t)).set ↔ _
  rw [View.set_slice_whole, Rect.mem_set_unit]
  exact Iff.rfl

/-- Row `r` of the first output lies in the block of point `r / 4000`, which is written back. -/
theorem h_cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := by rw [show cfg0.N = 25 from N_0]; omega
  obtain ⟨a0, a1, b0, b1, c0, c1, d0, d1, e0, e1, f0, f1, g0, g1, h0, h1⟩ := block_index_facts ⟨(i 0).val / 4000, hN⟩
  refine ⟨⟨(i 0).val / 4000, hN⟩, flush0_6 _, ?_⟩
  rw [mem_h_block]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [g0]; show (i 0).val / 4000 * 4000 ≤ (i 0).val ∧ (i 0).val < (i 0).val / 4000 * 4000 + 4000; omega
  | ⟨1, _⟩ =>
    show win0_6.index ⟨(i 0).val / 4000, hN⟩ (1 : Fin 2) * 128 ≤ (i 1).val ∧ (i 1).val < win0_6.index ⟨(i 0).val / 4000, hN⟩ (1 : Fin 2) * 128 + 128
    rw [g1]; omega

/-- Row `r` of the second output likewise. -/
theorem phi_cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 4000 < cfg0.N := by rw [show cfg0.N = 25 from N_0]; omega
  obtain ⟨a0, a1, b0, b1, c0, c1, d0, d1, e0, e1, f0, f1, g0, g1, h0, h1⟩ := block_index_facts ⟨(i 0).val / 4000, hN⟩
  refine ⟨⟨(i 0).val / 4000, hN⟩, flush0_7 _, ?_⟩
  rw [mem_phi_block]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [h0]; show (i 0).val / 4000 * 4000 ≤ (i 0).val ∧ (i 0).val < (i 0).val / 4000 * 4000 + 4000; omega
  | ⟨1, _⟩ =>
    show win0_7.index ⟨(i 0).val / 4000, hN⟩ (1 : Fin 2) * 128 ≤ (i 1).val ∧ (i 1).val < win0_7.index ⟨(i 0).val / 4000, hN⟩ (1 : Fin 2) * 128 + 128
    rw [h1]; omega

/-! ## The two arrays after the region -/

/-- After the first region its first output array holds `x · wt + b` of the arrays the region found. -/
theorem rows_h (c : Dev nD) :
    (dat0 (F := Ideal) V c).arrAt 6 cfg0.N = Cert.Gnn.affine128 (V c main_arg0) (V c main_v0) (V c main_v3) := by
  exact (dat0 (F := Ideal) V c).arrAt_eq_of_cover 6 _ (fun t _ => flushed_h V c t) h_cover

/-- After the first region its second output array holds `u · pt + pb` of the arrays the region found. -/
theorem rows_phi (c : Dev nD) :
    (dat0 (F := Ideal) V c).arrAt 7 cfg0.N = Cert.Gnn.affine128 (V c main_arg1) (V c main_v1) (V c main_v4) := by
  exact (dat0 (F := Ideal) V c).arrAt_eq_of_cover 7 _ (fun t _ => flushed_phi V c t) phi_cover

end Cert.KernelIdeal.LinearValue

end
-- ==== Proof.CombineBlocks.lean ====
import proofs.«104201_j43361989821071_1_alg».proof.Proof.Gen.KernelIdeal.Frame
import proofs.«104201_j43361989821071_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue

open Cert.KernelIdeal Cert.KernelIdeal.Gen Cert.KernelIdeal.Facts₀
open Idealize.ShloMosaic Idealize.ShloMosaic.TcCoe Idealize.SL.Sem
open Idealize.ShloMosaic.Pipeline (Dat Cfg Window)
open scoped BigOperators

/-! ## What the body computes on one block, entry by entry -/

/-- The rectified sum of two blocks at an entry: max (a + p, 0), the zero kept as the float word of +0.0. -/
theorem rectified_apply (x0 x1 : Vec Ideal S4000x128 .f32) (y : S4000x128.Idx) :
    k1_pay1 (F := Ideal) x0 x1 y = max (x0 y + x1 y) (FloatOps.ofBits (F := Ideal) .f32 0x00000000#32) := by
  unfold k1_pay1
  rw [shapeCast_self, shapeCast_self]
  rfl

/-- Left factor of the head's product, non-contracted axis: the output's row. -/
theorem head_lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- Left factor, contracted axis: the summation index. -/
theorem head_lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- Right factor, contracted axis: the summation index. -/
theorem head_rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- Right factor, non-contracted axis: the output's column. -/
theorem head_rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Row of y, column k, inside a 4000 × 128 block. -/
abbrev blkRow (y : S4000x64.Idx) (k : Fin 128) : S4000x128.Idx := fun a => match a with
  | ⟨0, _⟩ => ⟨(y 0).val, (y 0).isLt⟩
  | ⟨1, _⟩ => ⟨k.val, k.isLt⟩
/-- Row k, column of y, in the 128 × 64 weight. -/
abbrev wCol (y : S4000x64.Idx) (k : Fin 128) : S128x64.Idx := fun a => match a with
  | ⟨0, _⟩ => ⟨k.val, k.isLt⟩
  | ⟨1, _⟩ => ⟨(y 1).val, (y 1).isLt⟩
/-- Column of y in the one-row bias. -/
abbrev bCol (y : S4000x64.Idx) : S1x64.Idx := fun a => match a with
  | ⟨0, _⟩ => ⟨0, Nat.one_pos⟩
  | ⟨1, _⟩ => ⟨(y 1).val, (y 1).isLt⟩

/-- The head's block at an entry: the sum over the hidden width of the rectified sum's row times the weight's
    column, plus the bias at that column. -/
theorem head_apply (x0 x1 : Vec Ideal S4000x128 .f32) (w : Vec Ideal S128x64 .f32) (b : Vec Ideal S1x64 .f32) (y : S4000x64.Idx) :
    k1_pay2 (F := Ideal) x0 x1 w b y
      = (∑ k : Fin 128, k1_pay1 (F := Ideal) x0 x1 (blkRow y k) * w (wCol y k)) + b (bCol y) := by
  unfold k1_pay2
  rw [ValueIdx.addf_apply, shapeCast_self, shapeCast_self]
  simp only [matmul]
  rw [Ideal.matmul_constant_zero_apply, ← Equiv.sum_comp (ValueIdx.contrEquiv1 dot_S4000x128_S128x64_S4000x64_1_0_0_1_n_n 128 rfl rfl).symm]
  congr 1
  · refine Finset.sum_congr rfl fun k _ => ?_
    have hk := ValueIdx.contrEquiv1_symm_val dot_S4000x128_S128x64_S4000x64_1_0_0_1_n_n 128 rfl rfl k
    have el : dot_S4000x128_S128x64_S4000x64_1_0_0_1_n_n.lhsIdx y ((ValueIdx.contrEquiv1 dot_S4000x128_S128x64_S4000x64_1_0_0_1_n_n 128 rfl rfl).symm k) = blkRow y k := funext fun a => Fin.ext (by
      match a with
      | ⟨0, _⟩ => exact head_lhs_0 _ _
      | ⟨1, _⟩ => exact (head_lhs_1 _ _).trans hk)
    have er : dot_S4000x128_S128x64_S4000x64_1_0_0_1_n_n.rhsIdx y ((ValueIdx.contrEquiv1 dot_S4000x128_S128x64_S4000x64_1_0_0_1_n_n 128 rfl rfl).symm k) = wCol y k := funext fun a => Fin.ext (by
      match a with
      | ⟨0, _⟩ => exact (head_rhs_0 _ _).trans hk
      | ⟨1, _⟩ => exact head_rhs_1 _ _)
    rw [el, er]
    rfl
  · exact broadcastTo_apply b _ y (bCol y) (fun a => match a with
      | ⟨0, _⟩ => rfl
      | ⟨1, _⟩ => rfl)

/-- The rectified sum of two blocks is the whole arrays' rectified sum, wherever each block's entry is the array's. -/
theorem rectified_of_blocks (A P : FVec Ideal S100000x128 .f32) (x0 x1 : Vec Ideal S4000x128 .f32)
    (y : S4000x128.Idx) (i : S100000x128.Idx) (h0 : x0 y = A i) (h1 : x1 y = P i) :
    k1_pay1 (F := Ideal) x0 x1 y = Cert.Gnn.reluSum A P i := by
  rw [rectified_apply, h0, h1]
  rfl

/-- The head's block is the head's affine map of the whole arrays, wherever the block's rectified rows, the weight's
    columns and the bias's entry are the arrays'. -/
theorem head_of_blocks (R : FVec Ideal S100000x128 .f32) (Wt : FVec Ideal S128x64 .f32) (B : FVec Ideal S1x64 .f32)
    (x0 x1 : Vec Ideal S4000x128 .f32) (w : Vec Ideal S128x64 .f32) (b : Vec Ideal S1x64 .f32)
    (y : S4000x64.Idx) (i : S100000x64.Idx)
    (hr : ∀ k : Fin 128, k1_pay1 (F := Ideal) x0 x1 (blkRow y k) = R (Cert.Gnn.rowAt i k))
    (hw : ∀ k : Fin 128, w (wCol y k) = Wt (Cert.Gnn.colAt i k))
    (hb : b (bCol y) = B (Cert.Gnn.biasAt i)) :
    k1_pay2 (F := Ideal) x0 x1 w b y = Cert.Gnn.affine64 R Wt B i := by
  rw [head_apply, hb]
  show _ = (∑ k : Fin 128, R (Cert.Gnn.rowAt i k) * Wt (Cert.Gnn.colAt i k)) + B (Cert.Gnn.biasAt i)
  congr 1
  exact Finset.sum_congr rfl fun k _ => by rw [hr k, hw k]

/-! ## From the blocks to the arrays -/

/-- A block's zero offsets, however spelt. -/
theorem zero_offsets : (![0, 0] : Fin 2 → Nat) = fun _ => 0 := funext fun a => by fin_cases a <;> rfl

/-- The block index maps over the 25 grid points: the four row-blocked arrays take block (t, 0), the weight and
    the bias their one block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

-- the TensorCore's buffer contents when the second kernel region is entered
variable (V : (c : Dev nD) → (b : Ref sig .tc) → Buf (Elt Ideal) ((c : Thread nD τ).loc b))

/-- What point t writes back to the first output is block t of the rectified sum of the two whole arrays. -/
theorem updated_block (c : Dev nD) (t : Fin cfg1.N) :
    (dat1 (F := Ideal) V c).flushed 4 t
      = ((cfg1.win 4).blk t).view.read (Elt Ideal) (Cert.Gnn.reluSum (V c main_v20) (V c main_v6_1)) := by
  show (cfg1.win 4).cut (grid1.coords t) ((dat1 V c).after 4 t) = _
  rw [after1_4]
  unfold out1_4
  rw [View.canon_unit_zero zero_offsets]
  simp only [View.ld_unit_zero (S := S4000x128) zero_offsets]
  obtain ⟨a0, a1, p0, p1, w0, w1, b0, b1, u0, u1, h0, h1⟩ := block_index t
  funext y
  have e0 : ((cfg1.win 0).blk t).view.emb y = ((cfg1.win 4).blk t).view.emb y := by
    funext a; apply Fin.ext
    match a with
    | ⟨0, _⟩ => show win1_0.index t (0 : Fin 2) * 4000 + 1 * (y 0).val = win1_4.index t (0 : Fin 2) * 4000 + 1 * (y 0).val; omega
    | ⟨1, _⟩ => show win1_0.index t (1 : Fin 2) * 128 + 1 * (y 1).val = win1_4.index t (1 : Fin 2) * 128 + 1 * (y 1).val; omega
  have e1 : ((cfg1.win 1).blk t).view.emb y = ((cfg1.win 4).blk t).view.emb y := by
    funext a; apply Fin.ext
    match a with
    | ⟨0, _⟩ => show win1_1.index t (0 : Fin 2) * 4000 + 1 * (y 0).val = win1_4.index t (0 : Fin 2) * 4000 + 1 * (y 0).val; omega
    | ⟨1, _⟩ => show win1_1.index t (1 : Fin 2) * 128 + 1 * (y 1).val = win1_4.index t (1 : Fin 2) * 128 + 1 * (y 1).val; omega
  exact rectified_of_blocks (V c main_v20) (V c main_v6_1) (iblk1 V c 0 t) (iblk1 V c 1 t) y
    (((cfg1.win 4).blk t).view.emb y) (congrArg (V c main_v20) e0) (congrArg (V c main_v6_1) e1)

/-- A row-column pair lies in point t's block of the first output iff each coordinate is in the block's range. -/
theorem mem_updated_block (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v21_0).slice (win1_4.rect t)).set ↔ _
  rw [View.set_slice_whole, Rect.mem_set_unit]
  exact Iff.rfl

/-- Row r of the first output lies in the block of point r / 4000. -/
theorem updated_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, u0, u1, -, -⟩ := block_index t
  refine ⟨t, flush1_4 t, ?_⟩
  rw [mem_updated_block]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- After the second region its first output array holds `max (agg + phi, 0)` of the arrays the region found. -/
theorem rows_updated (c : Dev nD) :
    (dat1 (F := Ideal) V c).arrAt 4 cfg1.N = Cert.Gnn.reluSum (V c main_v20) (V c main_v6_1) :=
  (dat1 V c).arrAt_eq_of_cover 4 _ (fun t _ => updated_block V c t) updated_cover

/-- What point t writes back to the second output is block t of the head's affine map of the rectified sum. -/
theorem head_block (c : Dev nD) (t : Fin cfg1.N) :
    (dat1 (F := Ideal) V c).flushed 5 t
      = ((cfg1.win 5).blk t).view.read (Elt Ideal)
          (Cert.Gnn.affine64 (Cert.Gnn.reluSum (V c main_v20) (V c main_v6_1)) (V c main_v2) (V c main_v5)) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S128x64) zero_offsets,
    View.ld_unit_zero (S := S1x64) zero_offsets]
  obtain ⟨a0, a1, p0, p1, w0, w1, b0, b1, u0, u1, h0, h1⟩ := block_index t
  funext y
  -- where the block's rectified row, the weight's column and the bias's entry sit in the whole arrays
  have e0 : ∀ k : Fin 128, ((cfg1.win 0).blk t).view.emb (blkRow y k)
      = Cert.Gnn.rowAt (((cfg1.win 5).blk t).view.emb y) k := fun k => by
    funext a; apply Fin.ext
    match a with
    | ⟨0, _⟩ => show win1_0.index t (0 : Fin 2) * 4000 + 1 * (y 0).val = win1_5.index t (0 : Fin 2) * 4000 + 1 * (y 0).val; omega
    | ⟨1, _⟩ => show win1_0.index t (1 : Fin 2) * 128 + 1 * k.val = k.val; omega
  have e1 : ∀ k : Fin 128, ((cfg1.win 1).blk t).view.emb (blkRow y k)
      = Cert.Gnn.rowAt (((cfg1.win 5).blk t).view.emb y) k := fun k => by
    funext a; apply Fin.ext
    match a with
    | ⟨0, _⟩ => show win1_1.index t (0 : Fin 2) * 4000 + 1 * (y 0).val = win1_5.index t (0 : Fin 2) * 4000 + 1 * (y 0).val; omega
    | ⟨1, _⟩ => show win1_1.index t (1 : Fin 2) * 128 + 1 * k.val = k.val; omega
  have e2 : ∀ k : Fin 128, ((cfg1.win 2).blk t).view.emb (wCol y k)
      = Cert.Gnn.colAt (((cfg1.win 5).blk t).view.emb y) k := fun k => by
    funext a; apply Fin.ext
    match a with
    | ⟨0, _⟩ => show win1_2.index t (0 : Fin 2) * 128 + 1 * k.val = k.val; omega
    | ⟨1, _⟩ => show win1_2.index t (1 : Fin 2) * 64 + 1 * (y 1).val = win1_5.index t (1 : Fin 2) * 64 + 1 * (y 1).val; omega
  have e3 : ((cfg1.win 3).blk t).view.emb (bCol y) = Cert.Gnn.biasAt (((cfg1.win 5).blk t).view.emb y) := by
    funext a; apply Fin.ext
    match a with
    | ⟨0, _⟩ => show win1_3.index t (0 : Fin 2) * 1 + 1 * 0 = 0; omega
    | ⟨1, _⟩ => show win1_3.index t (1 : Fin 2) * 64 + 1 * (y 1).val = win1_5.index t (1 : Fin 2) * 64 + 1 * (y 1).val; omega
  exact head_of_blocks (Cert.Gnn.reluSum (V c main_v20) (V c main_v6_1)) (V c main_v2) (V c main_v5)
    (iblk1 V c 0 t) (iblk1 V c 1 t) (iblk1 V c 2 t) (iblk1 V c 3 t) y (((cfg1.win 5).blk t).view.emb y)
    (fun k => rectified_of_blocks (V c main_v20) (V c main_v6_1) (iblk1 V c 0 t) (iblk1 V c 1 t) (blkRow y k)
      (Cert.Gnn.rowAt (((cfg1.win 5).blk t).view.emb y) k)
      (congrArg (V c main_v20) (e0 k)) (congrArg (V c main_v6_1) (e1 k)))
    (fun k => congrArg (V c main_v2) (e2 k))
    (congrArg (V c main_v5) e3)

/-- A row-column pair lies in point t's block of the second output iff each coordinate is in the block's range. -/
theorem mem_head_block (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v21_1).slice (win1_5.rect t)).set ↔ _
  rw [View.set_slice_whole, Rect.mem_set_unit]
  exact Iff.rfl

/-- Row r of the second output lies in the block of point r / 4000. -/
theorem head_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, h0, h1⟩ := block_index t
  refine ⟨t, flush1_5 t, ?_⟩
  rw [mem_head_block]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- After the second region its second output array holds the head's affine map of that rectified sum. -/
theorem rows_head (c : Dev nD) :
    (dat1 (F := Ideal) V c).arrAt 5 cfg1.N
      = Cert.Gnn.affine64 (Cert.Gnn.reluSum (V c main_v20) (V c main_v6_1)) (V c main_v2) (V c main_v5) :=
  (dat1 V c).arrAt_eq_of_cover 5 _ (fun t _ => head_block V c t) head_cover

end Cert.KernelIdeal.CombineValue

end
-- ==== Proof.Stretches.lean ====
/-
  The host operations around the two blocked passes, read as values.

  Before the first pass the program transposes the three weights and turns the three biases into one-row
  matrices; none of these touches an argument array. Between the passes it slices the edge list into sources and
  targets, wraps negative sources, gathers rows of the first pass's first output at the sources and adds them into a
  zero array at the targets: the aggregation of Proof/Spec.lean, applied to whatever that output holds. The second
  output of the first pass, the head's transposed weight and its bias row are not written in between, so the second
  pass finds them as the first pass and the first stretch left them.
-/
import proofs.«104201_j43361989821071_1_alg».proof.Proof.Gen.KernelIdeal.Frame
import proofs.«104201_j43361989821071_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stretches

open Cert.KernelIdeal Cert.KernelIdeal.Gen Cert.KernelIdeal.Facts₀
open Idealize.ShloMosaic Idealize.ShloMosaic.TcCoe Idealize.SL.Sem
open Idealize.ShloMosaic.Pipeline (Dat Cfg Window)
open scoped BigOperators
open Idealize.ShloMosaic.StableHlo

variable (m : (ℓ : Loc nD τ sig) → Buf (Elt Ideal) ℓ) (ρ : Dev nD → PrngReg)

/-! ## What the first region finds: the arguments, and the operands the first host stretch prepares -/

/-- The first pass finds the node features `x` as launched. -/
theorem entry0_x (c : Dev nD) : V1 m ρ c main_arg0 = m ((c.tc : Thread nD τ).loc main_arg0) := by
  show StableHlo.after hostOps0 (W0 m ρ c) (Proc.devRef .tc main_arg0) = _
  after_results
/-- And the second feature array `u` as launched. -/
theorem entry0_u (c : Dev nD) : V1 m ρ c main_arg1 = m ((c.tc : Thread nD τ).loc main_arg1) := by
  show StableHlo.after hostOps0 (W0 m ρ c) (Proc.devRef .tc main_arg1) = _
  after_results
/-- It finds the first weight transposed. -/
theorem entry0_wt (c : Dev nD) : V1 m ρ c main_v0 = Cert.Gnn.weightT128 (m ((c.tc : Thread nD τ).loc main_arg3)) := by
  show StableHlo.after hostOps0 (W0 m ρ c) (Proc.devRef .tc main_v0) = _
  after_results
  rfl
/-- It finds the first bias as a one-row matrix. -/
theorem entry0_wb (c : Dev nD) : V1 m ρ c main_v3 = Cert.Gnn.biasRow128 (m ((c.tc : Thread nD τ).loc main_arg4)) := by
  show StableHlo.after hostOps0 (W0 m ρ c) (Proc.devRef .tc main_v3) = _
  after_results
  rfl
/-- It finds the second weight transposed. -/
theorem entry0_pt (c : Dev nD) : V1 m ρ c main_v1 = Cert.Gnn.weightT128 (m ((c.tc : Thread nD τ).loc main_arg5)) := by
  show StableHlo.after hostOps0 (W0 m ρ c) (Proc.devRef .tc main_v1) = _
  after_results
  rfl
/-- It finds the second bias as a one-row matrix. -/
theorem entry0_pb (c : Dev nD) : V1 m ρ c main_v4 = Cert.Gnn.biasRow128 (m ((c.tc : Thread nD τ).loc main_arg6)) := by
  show StableHlo.after hostOps0 (W0 m ρ c) (Proc.devRef .tc main_v4) = _
  after_results
  rfl

/-! ## What the second region finds -/

set_option maxHeartbeats 2000000 in
/-- The second host stretch, from any contents `U`: the buffer the second region reads first ends at the edge
    sums of what `U` holds for the first region's first output, over the edge list `U` holds. -/
theorem stretch1_agg (U : Valuation τ sig (Elt Ideal)) :
    StableHlo.after hostOps1 U (Proc.devRef .tc main_v20)
      = Cert.Gnn.aggregate (U (Proc.devRef .tc main_v6_0)) (U (Proc.devRef .tc main_arg2)) := by
  after_results_simp <;> rfl

/-- The second pass's first operand: the edge sums of the rows the first pass wrote, over the edge list as launched. -/
theorem entry1_agg (c : Dev nD) :
    V3 m ρ c main_v20 = Cert.Gnn.aggregate ((dat0 (V1 m ρ) c).arrAt 6 cfg0.N) (m ((c.tc : Thread nD τ).loc main_arg2)) := by
  refine (stretch1_agg (W2 m ρ c)).trans ?_
  rw [W2_arr m ρ c 6, W2_of_ne m ρ c main_arg2 (by decide)]
  refine congrArg (Cert.Gnn.aggregate _) ?_
  show StableHlo.after hostOps0 (W0 m ρ c) (Proc.devRef .tc main_arg2) = _
  after_results
/-- Its second operand: the first pass's second output, untouched by the stretch between. -/
theorem entry1_phi (c : Dev nD) : V3 m ρ c main_v6_1 = (dat0 (V1 m ρ) c).arrAt 7 cfg0.N := by
  show StableHlo.after hostOps1 (W2 m ρ c) (Proc.devRef .tc main_v6_1) = _
  after_results
  exact W2_arr m ρ c 7
/-- The head's weight, transposed by the first stretch and untouched since. -/
theorem entry1_qt (c : Dev nD) : V3 m ρ c main_v2 = Cert.Gnn.weightT64 (m ((c.tc : Thread nD τ).loc main_arg7)) := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl
/-- The head's bias as a one-row matrix, likewise. -/
theorem entry1_qb (c : Dev nD) : V3 m ρ c main_v5 = Cert.Gnn.biasRow64 (m ((c.tc : Thread nD τ).loc main_arg8)) := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  rfl

end Cert.KernelIdeal.Stretches

end
-- ==== Proof.KernelValue.lean ====
/-
  The kernel program's two results as functions of its nine arguments.

  The first blocked pass leaves h = x · W_wᵀ + W_b and φ = u · φ_wᵀ + φ_b (Proof/LinearBlocks.lean) of the operands the
  first host stretch prepared (Proof/Stretches.lean); the stretch between the passes turns h into its edge sums; the
  second pass leaves max (agg + φ, 0) and the head's affine map of it (Proof/CombineBlocks.lean). Composed, the two
  result buffers at the end of the program hold the specification's two functions of the arguments.
-/
import proofs.«104201_j43361989821071_1_alg».proof.Proof.Gen.KernelIdeal.Frame
import proofs.«104201_j43361989821071_1_alg».proof.Proof.Spec
import proofs.«104201_j43361989821071_1_alg».proof.Proof.LinearBlocks
import proofs.«104201_j43361989821071_1_alg».proof.Proof.CombineBlocks
import proofs.«104201_j43361989821071_1_alg».proof.Proof.Stretches
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelValue

open Cert.KernelIdeal Cert.KernelIdeal.Gen Cert.KernelIdeal.Facts₀
open Idealize.ShloMosaic Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg)

/-- What the second region finds in its first operand: the edge sums of the first region's `h`. -/
theorem entry1_agg_rows (c : Dev nD) :
    V3 m ρ c main_v20
      = Cert.Gnn.aggregate
          (Cert.Gnn.affine128 (m ((c.tc : Thread nD τ).loc main_arg0)) (Cert.Gnn.weightT128 (m ((c.tc : Thread nD τ).loc main_arg3)))
            (Cert.Gnn.biasRow128 (m ((c.tc : Thread nD τ).loc main_arg4))))
          (m ((c.tc : Thread nD τ).loc main_arg2)) := by
  rw [Stretches.entry1_agg, LinearValue.rows_h, Stretches.entry0_x, Stretches.entry0_wt, Stretches.entry0_wb]

/-- And in its second operand: the first region's affine map of `u`. -/
theorem entry1_phi_rows (c : Dev nD) :
    V3 m ρ c main_v6_1
      = Cert.Gnn.affine128 (m ((c.tc : Thread nD τ).loc main_arg1)) (Cert.Gnn.weightT128 (m ((c.tc : Thread nD τ).loc main_arg5)))
          (Cert.Gnn.biasRow128 (m ((c.tc : Thread nD τ).loc main_arg6))) := by
  rw [Stretches.entry1_phi, LinearValue.rows_phi, Stretches.entry0_u, Stretches.entry0_pt, Stretches.entry0_pb]

/-- The first result buffer at the end of @main: the updated node features of the nine arguments. -/
theorem result0 (c : Dev nD) :
    W4 m ρ c (Proc.devRef .tc main_v21_0)
      = Cert.Gnn.nodeUpdate (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (W4_arr m ρ c 4).trans ?_
  rw [CombineValue.rows_updated, entry1_agg_rows, entry1_phi_rows]
  rfl

/-- The second result buffer at the end of @main: the prediction head of those features. -/
theorem result1 (c : Dev nD) :
    W4 m ρ c (Proc.devRef .tc main_v21_1)
      = Cert.Gnn.prediction (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  refine (W4_arr m ρ c 5).trans ?_
  rw [CombineValue.rows_head, entry1_agg_rows, entry1_phi_rows, Stretches.entry1_qt, Stretches.entry1_qb]
  rfl

end Cert.KernelIdeal.KernelValue

end
-- ==== Proof.ReferenceValue.lean ====
import proofs.«104201_j43361989821071_1_alg».proof.Proof.Gen.ReferenceIdeal.Read
import proofs.«104201_j43361989821071_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.SpecValue

open Cert.ReferenceIdeal Cert.ReferenceIdeal.Gen Cert.ReferenceIdeal.Read
open Idealize.ShloMosaic Idealize.ShloMosaic.TcCoe Idealize.SL.Sem
open scoped BigOperators

/-! ## The operands

The transposed weights are the same terms in both programs: a transpose of the argument with the same permutation,
between shapes with the same literal sizes. -/

theorem weightT128_eq (w : (⟨S128x128, .f32⟩ : BufTy).Contents (Elt Ideal)) :
    val_main_v4 (F := Ideal) w = Cert.Gnn.weightT128 w := rfl

theorem weightT64_eq (w : (⟨S64x128, .f32⟩ : BufTy).Contents (Elt Ideal)) :
    val_main_v26 (F := Ideal) w = Cert.Gnn.weightT64 w := rfl

/-- A length-128 bias viewed as one row, read at column `j`, is the bias at `j`: the view only adds a leading unit axis. -/
theorem biasRow128_apply (b : (⟨S128, .f32⟩ : BufTy).Contents (Elt Ideal)) (i : S100000x128.Idx) :
    Cert.Gnn.biasRow128 b (Cert.Gnn.biasAt i) = b (idx_main_v6 (idx_main_v7 i)) := by
  unfold Cert.Gnn.biasRow128
  refine shapeCast_apply b _ (Cert.Gnn.biasAt i) (idx_main_v6 (idx_main_v7 i)) ?_
  rewrite [Shape.rowMajor_val_two, Shape.rowMajor_val_one]
  show (i 1).val = 0 * 128 + (i 1).val
  omega

/-- The same for the length-64 bias of the head. -/
theorem biasRow64_apply (b : (⟨S64, .f32⟩ : BufTy).Contents (Elt Ideal)) (i : S100000x64.Idx) :
    Cert.Gnn.biasRow64 b (Cert.Gnn.biasAt i) = b (idx_main_v28 (idx_main_v29 i)) := by
  unfold Cert.Gnn.biasRow64
  refine shapeCast_apply b _ (Cert.Gnn.biasAt i) (idx_main_v28 (idx_main_v29 i)) ?_
  rewrite [Shape.rowMajor_val_two, Shape.rowMajor_val_one]
  show (i 1).val = 0 * 64 + (i 1).val
  omega

/-! ## The affine maps

A product of the reference, read at an index, is the specification's sum: the left factor is read at row `i 0`,
column `k`, the right at row `k`, column `i 1`, which are the specification's own index functions. -/

/-- The reference's left and right index functions of a product into width 128 are the specification's. -/
theorem lidx128_eq (i : S100000x128.Idx) (k : Fin 128) : lidx_main_v5 i k = Cert.Gnn.rowAt i k :=
  funext fun a => match a with
    | ⟨0, _⟩ => rfl
    | ⟨1, _⟩ => rfl

theorem ridx128_eq (i : S100000x128.Idx) (k : Fin 128) : ridx_main_v5 i k = Cert.Gnn.colAt i k :=
  funext fun a => match a with
    | ⟨0, _⟩ => rfl
    | ⟨1, _⟩ => rfl

/-- The same for the product into width 64. -/
theorem lidx64_eq (i : S100000x64.Idx) (k : Fin 128) : lidx_main_v27 i k = Cert.Gnn.rowAt i k :=
  funext fun a => match a with
    | ⟨0, _⟩ => rfl
    | ⟨1, _⟩ => rfl

theorem ridx64_eq (i : S100000x64.Idx) (k : Fin 128) : ridx_main_v27 i k = Cert.Gnn.colAt i k :=
  funext fun a => match a with
    | ⟨0, _⟩ => rfl
    | ⟨1, _⟩ => rfl

theorem dot128_apply (x : (⟨S100000x128, .f32⟩ : BufTy).Contents (Elt Ideal)) (w : (⟨S128x128, .f32⟩ : BufTy).Contents (Elt Ideal))
    (i : S100000x128.Idx) :
    val_main_v5 (F := Ideal) x w i
      = ∑ k : Fin 128, x (Cert.Gnn.rowAt i k) * Cert.Gnn.weightT128 w (Cert.Gnn.colAt i k) := by
  rw [val_main_v5_apply, weightT128_eq]
  exact Finset.sum_congr rfl fun k _ => by rw [lidx128_eq, ridx128_eq]

/-- The bias, broadcast over the rows, read at an index, is the one-row bias at that column. -/
theorem bias128_apply (b : (⟨S128, .f32⟩ : BufTy).Contents (Elt Ideal)) (i : S100000x128.Idx) :
    val_main_v7 (F := Ideal) b i = Cert.Gnn.biasRow128 b (Cert.Gnn.biasAt i) := by
  rw [val_main_v7_apply, val_main_v6_apply, biasRow128_apply]

/-- The rows `h = x · W_wᵀ + W_b` of the reference are the specification's affine map. -/
theorem rows_eq (x : (⟨S100000x128, .f32⟩ : BufTy).Contents (Elt Ideal)) (w : (⟨S128x128, .f32⟩ : BufTy).Contents (Elt Ideal))
    (b : (⟨S128, .f32⟩ : BufTy).Contents (Elt Ideal)) :
    val_main_v8 (F := Ideal) x w b = Cert.Gnn.affine128 x (Cert.Gnn.weightT128 w) (Cert.Gnn.biasRow128 b) := by
  funext i
  rw [val_main_v8_apply, Ideal.addf_def, dot128_apply, bias128_apply]
  rfl

/-- The second product and its bias are the first's operations on other arguments. -/
theorem dotU_eq (x : (⟨S100000x128, .f32⟩ : BufTy).Contents (Elt Ideal)) (w : (⟨S128x128, .f32⟩ : BufTy).Contents (Elt Ideal)) :
    val_main_v20 (F := Ideal) x w = val_main_v5 (F := Ideal) x w := rfl

theorem biasU_eq (b : (⟨S128, .f32⟩ : BufTy).Contents (Elt Ideal)) :
    val_main_v23 (F := Ideal) b = val_main_v7 (F := Ideal) b := rfl

/-! ## The edge sums

The reference gathers and scatter-adds with the very operations of the specification's `aggregate`, applied to its
rows `h`; the two are the same term. -/

theorem edgeSums_eq (x0 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal)) :
    val_main_v18 (F := Ideal) x0 x2 x3 x4 = Cert.Gnn.aggregate (val_main_v8 (F := Ideal) x0 x3 x4) x2 := rfl

/-- The reference's first result, stage by stage, is the updated node features of its arguments. -/
theorem updated_eq (x0 x1 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v25 (F := Ideal) x0 x1 x2 x3 x4 x5 x6 = Cert.Gnn.nodeUpdate x0 x1 x2 x3 x4 x5 x6 := by
  funext i
  -- entry by entry the reference forms `max ((agg + d) + b) 0` with `d` the product for `u` and `b` its bias, the
  -- specification `max (agg + (d + b)) 0`: addition on the extended reals is associative, with no finiteness needed
  rw [val_main_v25_apply, val_main_v24_apply, val_main_v21_apply, edgeSums_eq, rows_eq, dotU_eq, biasU_eq,
    val_main_call0_v0_apply, val_main_call0_cst_apply, Ideal.maximumf_def, Ideal.addf_def, Ideal.addf_def,
    dot128_apply, bias128_apply, add_assoc]
  rfl

/-- The reference's second result is the prediction head of those features. -/
theorem head_eq (x0 x1 : (⟨S100000x128, .f32⟩ : BufTy).Contents (Elt Ideal)) (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S64x128, .f32⟩ : BufTy).Contents (Elt Ideal)) (x8 : (⟨S64, .f32⟩ : BufTy).Contents (Elt Ideal)) :
    val_main_v30 (F := Ideal) x0 x1 x2 x3 x4 x5 x6 x7 x8 = Cert.Gnn.prediction x0 x1 x2 x3 x4 x5 x6 x7 x8 := by
  funext i
  -- the head is the affine map into width 64 of the first result: the product's sum term by term, then the bias
  rw [val_main_v30_apply, val_main_v27_apply, val_main_v29_apply, val_main_v28_apply, updated_eq, weightT64_eq,
    Ideal.addf_def, ← biasRow64_apply x8 i]
  show _ = (∑ k : Fin 128, Cert.Gnn.nodeUpdate x0 x1 x2 x3 x4 x5 x6 (Cert.Gnn.rowAt i k) * Cert.Gnn.weightT64 x7 (Cert.Gnn.colAt i k))
    + Cert.Gnn.biasRow64 x8 (Cert.Gnn.biasAt i)
  exact congrArg (· + Cert.Gnn.biasRow64 x8 (Cert.Gnn.biasAt i)) (Finset.sum_congr rfl fun k _ => by rw [lidx64_eq, ridx64_eq])

end Cert.ReferenceIdeal.SpecValue

end
-- ==== Proof.lean ====
/-
  One round of graph message passing, kernel against reference, over the extended reals.

  Both programs compute, from node features x, u (100000 × 128), an edge list (2 × 1600000) and three affine layers,
      h   = x · W_wᵀ + W_b,   agg[t] = Σ_{edges s → t} h[s],   x' = max (agg + u · φ_wᵀ + φ_b, 0),   y = x' · pred_wᵀ + pred_b,
  and return (x', y). The kernel runs the two affine maps of the first line in one blocked pass over the rows (25 blocks
  of 4000 rows), hands `h` to the very same gather and scatter-sum the reference uses, and runs the rectified sum and
  the prediction head in a second blocked pass; its products take their operands through a narrower float format,
  which over the extended reals is the identity. A product against a zero accumulator and the reference's contraction are
  the same finite sum Σ_k, block by block the same rows, so each affine map is one function of whole arrays
  (Proof/Spec.lean). The edge aggregation is carried as one unopened function applied on both sides to equal rows.
  The one regrouping between the two programs is agg + (u · φ_wᵀ + φ_b) against (agg + u · φ_wᵀ) + φ_b: addition of
  extended reals is associative, so no finiteness of the inputs is used.
-/
import proofs.«104201_j43361989821071_1_alg».proof.Defs
import proofs.«104201_j43361989821071_1_alg».proof.Proof.Gen.Kernel
import proofs.«104201_j43361989821071_1_alg».proof.Proof.Gen.Kernel.Skeleton
import proofs.«104201_j43361989821071_1_alg».proof.Proof.Gen.Kernel.Launch
import proofs.«104201_j43361989821071_1_alg».proof.Proof.Gen.Kernel.Points
import proofs.«104201_j43361989821071_1_alg».proof.Proof.Gen.Kernel.Frame
import proofs.«104201_j43361989821071_1_alg».proof.Proof.Gen.KernelIdeal
import proofs.«104201_j43361989821071_1_alg».proof.Proof.Gen.KernelIdeal.Skeleton
import proofs.«104201_j43361989821071_1_alg».proof.Proof.Gen.KernelIdeal.Launch
import proofs.«104201_j43361989821071_1_alg».proof.Proof.Gen.KernelIdeal.Points
import proofs.«104201_j43361989821071_1_alg».proof.Proof.Gen.KernelIdeal.Frame
import proofs.«104201_j43361989821071_1_alg».proof.Proof.Gen.ReferenceIdeal
import proofs.«104201_j43361989821071_1_alg».proof.Proof.Gen.ReferenceIdeal.Run
import proofs.«104201_j43361989821071_1_alg».proof.Proof.Gen.ReferenceIdeal.Read
import proofs.«104201_j43361989821071_1_alg».proof.Proof.Gen.Pre_finite_inputs
import proofs.«104201_j43361989821071_1_alg».proof.Proof.NamedRun
import proofs.«104201_j43361989821071_1_alg».proof.Proof.KernelValue
import proofs.«104201_j43361989821071_1_alg».proof.Proof.ReferenceValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a sequence of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with (x', y) of the arguments: the kernel by its two blocked passes around the shared edge
    aggregation, the reference stage by stage. -/
theorem algebraic : Cert.algebraic_KernelIdeal_ReferenceIdeal := by
  intro m ρ m' ρ' _ hagree
  refine ⟨fun c => Cert.Gnn.nodeUpdate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Gnn.prediction (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.result0 m ρ c),
        (h c).2.1.trans (Cert.KernelIdeal.KernelValue.result1 m ρ c), (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2⟩
    · rw [Cert.ReferenceIdeal.Read.val_main_v25_eq, Cert.ReferenceIdeal.SpecValue.updated_eq, e0, e1, e2, e3, e4, e5, e6]
    · rw [Cert.ReferenceIdeal.Read.val_main_v30_eq, Cert.ReferenceIdeal.SpecValue.head_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
